-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4096x2048 : Shape := ⟨2, ![4096, 2048]⟩
abbrev S4096 : Shape := ⟨1, ![4096]⟩
abbrev S1x4096x1x1 : Shape := ⟨4, ![1, 4096, 1, 1]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_
  bcast_S_S1x4096x1x1 : S_.BroadcastsInDim S1x4096x1x1 (![] : Fin 0 → Fin S1x4096x1x1.rank)
  reducesTo_S1x4096x1x1_S_d0_1_2_3 : S1x4096x1x1.ReducesTo [0, 1, 2, 3] S_

variable [Facts]

def fn_part1 {F : FTy → Type} [FloatOps F] (main_arg4 : FVec F S4096 .f32) (main_arg5 : FVec F S1x4096x1x1 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S1x4096x1x1 .f32 := Host.absf main_arg5
  let main_cst_8 : FVec F S_ .f32 := constant S_ .f32 0x7F800000#32
  let main_v25 : FVec F S1x4096x1x1 .f32 := broadcastInDim S1x4096x1x1 ![] bcast_S_S1x4096x1x1 main_cst_8
  let main_v26 : IVec S1x4096x1x1 1 := cmpf .olt main_v24 main_v25
  let main_c_9 : IVec S_ 1 := constantI S_ 1 1#1
  let main_v27 : IVec S_ 1 := (fun x v => Host.reduce IntOp.andi x v reducesTo_S1x4096x1x1_S_d0_1_2_3 h_S_) main_v26 main_c_9
  let main_v28 : IVec S_ 1 := andi main_v23 main_v27
  main_v28

def fn {F : FTy → Type} [FloatOps F] (main_arg0 : FVec F S8192x2048 .f32) (main_arg1 : FVec F S4096x2048 .f32) (main_arg2 : FVec F S4096 .f32) (main_arg3 : FVec F S4096 .f32) (main_arg4 : FVec F S4096 .f32) (main_arg5 : FVec F S1x4096x1x1 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S8192x2048 : Shape := ⟨2, ![8192, 2048]⟩
abbrev S4096x2048 : Shape := ⟨2, ![4096, 2048]⟩
abbrev S4096 : Shape := ⟨1, ![4096]⟩
abbrev S1x4096x1x1 : Shape := ⟨4, ![1, 4096, 1, 1]⟩
abbrev S1x4096 : Shape := ⟨2, ![1, 4096]⟩
abbrev S8192x1 : Shape := ⟨2, ![8192, 1]⟩
abbrev S128x2048 : Shape := ⟨2, ![128, 2048]⟩
abbrev S128x1 : Shape := ⟨2, ![128, 1]⟩
abbrev S128x4096 : Shape := ⟨2, ![128, 4096]⟩
abbrev S128x32x128 : Shape := ⟨3, ![128, 32, 128]⟩
abbrev S128x32 : Shape := ⟨2, ![128, 32]⟩
abbrev S128x32x1 : Shape := ⟨3, ![128, 32, 1]⟩
abbrev S128 : Shape := ⟨1, ![128]⟩
abbrev S8192x4096 : Shape := ⟨2, ![8192, 4096]⟩
abbrev S512x1 : Shape := ⟨2, ![512, 1]⟩
abbrev S512x4096 : Shape := ⟨2, ![512, 4096]⟩

abbrev nBuf : Space → Nat
  | .hbm => 13
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S1x4096x1x1, .f32⟩
  | .hbm, ⟨6, _⟩ => ⟨S4096x2048, .bf16⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S8192x1, .f32⟩
  | .hbm, ⟨11, _⟩ => ⟨S1x4096, .f32⟩
  | .hbm, ⟨12, _⟩ => ⟨S8192x4096, .f32⟩
  | .local _ .vmem, ⟨0, _⟩ => ⟨S128x2048, .f32⟩
  | .local _ .vmem, ⟨1, _⟩ => ⟨S128x2048, .f32⟩
  | .local _ .vmem, ⟨2, _⟩ => ⟨S4096x2048, .bf16⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S128x1, .f32⟩
  | .local _ .vmem, ⟨7, _⟩ => ⟨S128x1, .f32⟩
  | .local _ .vmem, ⟨8, _⟩ => ⟨S512x1, .f32⟩
  | .local _ .vmem, ⟨9, _⟩ => ⟨S512x1, .f32⟩
  | .local _ .vmem, ⟨10, _⟩ => ⟨S1x4096, .f32⟩
  | .local _ .vmem, ⟨11, _⟩ => ⟨S512x4096, .f32⟩
  | .local _ .vmem, ⟨12, _⟩ => ⟨S512x4096, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  shapeCasts_S4096_S1x4096 : S4096.ShapeCasts S1x4096
  inb_S128x2048_S128x2048_0_0 : ∀ a, (![0, 0] : Fin 2 → Nat) a + S128x2048.size a ≤ S128x2048.size a
  h_S128x2048 : 0 < S128x2048.numel
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  shapeCasts_S128x4096_S128x32x128 : S128x4096.ShapeCasts S128x32x128
  reduces_S128x32x128_S128x32 : S128x32x128.Reduces [2] S128x32
  shapeCasts_S128x32_S128x32x1 : S128x32.ShapeCasts S128x32x1
  broadcasts_S128x32x1_S128x32x128 : S128x32x1.Broadcasts S128x32x128
  shapeCasts_S128x32x128_S128x4096 : S128x32x128.ShapeCasts S128x4096
  reduces_S128x4096_S128 : S128x4096.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S1x4096x1x1_S1x4096 : S1x4096x1x1.ShapeCasts S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x4096 : S512x1.Broadcasts S512x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  dot_S128x2048_S4096x2048_S128x4096_1_1_0_0_n_n_wf : DotDims.WF S128x2048 S4096x2048 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S8192x2048.size a
  hwx0_0 : ∀ i : grid0.Coords, EltTy.bits .f32 = 32 ∨ (Rect.block (s := S8192x2048) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x2048.size a ≤ S4096x2048.size a
  hwx0_1 : ∀ i : grid0.Coords, EltTy.bits .bf16 = 32 ∨ (Rect.block (s := S4096x2048) S4096x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S8192x1.size a
  hwx0_5 : ∀ i : grid0.Coords, EltTy.bits .f32 = 32 ∨ (Rect.block (s := S8192x1) S128x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1.size a ≤ S8192x1.size a
  hwx1_0 : ∀ i : grid1.Coords, EltTy.bits .f32 = 32 ∨ (Rect.block (s := S8192x1) S512x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S8192x4096.size a
  hwx1_2 : ∀ i : grid1.Coords, EltTy.bits .f32 = 32 ∨ (Rect.block (s := S8192x4096) S512x4096.size (cc1_transform_2 i) (hinb1_2 i)).WholeWords (EltTy.packing .f32)

variable [Facts₀]

def dot_S128x2048_S4096x2048_S128x4096_1_1_0_0_n_n : DotDims S128x2048 S4096x2048 S128x4096 where
  lhsContracting := [1]
  rhsContracting := [1]
  lhsNonContracting := [0]
  rhsNonContracting := [0]
  lhsBatch := []
  rhsBatch := []
  wf := dot_S128x2048_S4096x2048_S128x4096_1_1_0_0_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S512x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S512x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S4096x2048 : Shape := ⟨2, ![4096, 2048]⟩
abbrev S4096 : Shape := ⟨1, ![4096]⟩
abbrev S1x4096x1x1 : Shape := ⟨4, ![1, 4096, 1, 1]⟩
abbrev S8192x4096 : Shape := ⟨2, ![8192, 4096]⟩
abbrev S1x4096 : Shape := ⟨2, ![1, 4096]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩
abbrev S8192 : Shape := ⟨1, ![8192]⟩
abbrev S8192x1 : Shape := ⟨2, ![8192, 1]⟩
abbrev S8192x1x1x1 : Shape := ⟨4, ![8192, 1, 1, 1]⟩
abbrev S8192x4096x1x1 : Shape := ⟨4, ![8192, 4096, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S1x4096x1x1, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | .hbm, ⟨10, _⟩ => ⟨S8192x32x128, .f32⟩
  | .hbm, ⟨11, _⟩ => ⟨S_, .f32⟩
  | .hbm, ⟨12, _⟩ => ⟨S8192x32, .f32⟩
  | .hbm, ⟨13, _⟩ => ⟨S8192x32x1, .f32⟩
  | .hbm, ⟨14, _⟩ => ⟨S_, .f32⟩
  | .hbm, ⟨15, _⟩ => ⟨S8192x32x1, .f32⟩
  | .hbm, ⟨16, _⟩ => ⟨S8192x32x1, .f32⟩
  | .hbm, ⟨17, _⟩ => ⟨S8192x32x128, .f32⟩
  | .hbm, ⟨18, _⟩ => ⟨S8192x32x128, .f32⟩
  | .hbm, ⟨19, _⟩ => ⟨S8192x32x128, .f32⟩
  | .hbm, ⟨20, _⟩ => ⟨S_, .f32⟩
  | .hbm, ⟨21, _⟩ => ⟨S8192x32, .f32⟩
  | .hbm, ⟨22, _⟩ => ⟨S8192x32x1, .f32⟩
  | .hbm, ⟨23, _⟩ => ⟨S_, .f32⟩
  | .hbm, ⟨24, _⟩ => ⟨S8192x32x1, .f32⟩
  | .hbm, ⟨25, _⟩ => ⟨S8192x32x1, .f32⟩
  | .hbm, ⟨26, _⟩ => ⟨S8192x32x128, .f32⟩
  | .hbm, ⟨27, _⟩ => ⟨S8192x32x128, .f32⟩
  | .hbm, ⟨28, _⟩ => ⟨S_, .f32⟩
  | .hbm, ⟨29, _⟩ => ⟨S8192x32x1, .f32⟩
  | .hbm, ⟨30, _⟩ => ⟨S8192x32x1, .f32⟩
  | .hbm, ⟨31, _⟩ => ⟨S8192x32x1, .f32⟩
  | .hbm, ⟨32, _⟩ => ⟨S8192x32x128, .f32⟩
  | .hbm, ⟨33, _⟩ => ⟨S8192x32x128, .f32⟩
  | .hbm, ⟨34, _⟩ => ⟨S8192x4096, .f32⟩
  | .hbm, ⟨35, _⟩ => ⟨S1x4096, .f32⟩
  | .hbm, ⟨36, _⟩ => ⟨S8192x4096, .f32⟩
  | .hbm, ⟨37, _⟩ => ⟨S8192x4096, .f32⟩
  | .hbm, ⟨38, _⟩ => ⟨S1x4096, .f32⟩
  | .hbm, ⟨39, _⟩ => ⟨S8192x4096, .f32⟩
  | .hbm, ⟨40, _⟩ => ⟨S8192x4096, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1x1x1, .f32⟩
  | .hbm, ⟨45, _⟩ => ⟨S8192x4096x1x1, .f32⟩
  | .hbm, ⟨46, _⟩ => ⟨S8192x4096x1x1, .f32⟩
  | .hbm, ⟨47, _⟩ => ⟨S8192x4096x1x1, .f32⟩
  | .hbm, ⟨48, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S8192x32x128 : S8192x4096.ShapeCasts S8192x32x128
  reducesTo_S8192x32x128_S8192x32_d2 : S8192x32x128.ReducesTo [2] S8192x32
  h_S_ : 0 < S_.numel
  bcast_S8192x32_S8192x32x1_0_1 : S8192x32.BroadcastsInDim S8192x32x1 (![0, 1] : Fin 2 → Fin S8192x32x1.rank)
  bcast_S_S8192x32x1 : S_.BroadcastsInDim S8192x32x1 (![] : Fin 0 → Fin S8192x32x1.rank)
  bcast_S8192x32x1_S8192x32x128_0_1_2 : S8192x32x1.BroadcastsInDim S8192x32x128 (![0, 1, 2] : Fin 3 → Fin S8192x32x128.rank)
  shapeCasts_S8192x32x128_S8192x4096 : S8192x32x128.ShapeCasts S8192x4096
  reducesTo_S8192x4096_S8192_d1 : S8192x4096.ReducesTo [1] S8192
  bcast_S8192_S8192x1_0 : S8192.BroadcastsInDim S8192x1 (![0] : Fin 1 → Fin S8192x1.rank)
  bcast_S8192x1_S8192x1x1x1_0_1 : S8192x1.BroadcastsInDim S8192x1x1x1 (![0, 1] : Fin 2 → Fin S8192x1x1x1.rank)
  bcast_S8192x1x1x1_S8192x4096x1x1_0_1_2_3 : S8192x1x1x1.BroadcastsInDim S8192x4096x1x1 (![0, 1, 2, 3] : Fin 4 → Fin S8192x4096x1x1.rank)
  bcast_S1x4096x1x1_S8192x4096x1x1_0_1_2_3 : S1x4096x1x1.BroadcastsInDim S8192x4096x1x1 (![0, 1, 2, 3] : Fin 4 → Fin S8192x4096x1x1.rank)
  shapeCasts_S8192x4096x1x1_S8192x4096 : S8192x4096x1x1.ShapeCasts S8192x4096
  dot_S8192x2048_S4096x2048_S8192x4096_1_1_0_0_n_n_wf : DotDims.WF S8192x2048 S4096x2048 S8192x4096 [1] [1] [0] [0] [] []

variable [Facts₀]

def dot_S8192x2048_S4096x2048_S8192x4096_1_1_0_0_n_n : DotDims S8192x2048 S4096x2048 S8192x4096 where
  lhsContracting := [1]
  rhsContracting := [1]
  lhsNonContracting := [0]
  rhsNonContracting := [0]
  lhsBatch := []
  rhsBatch := []
  wf := dot_S8192x2048_S4096x2048_S8192x4096_1_1_0_0_n_n_wf

class Facts : Prop extends Facts₀ where

variable [Facts]
-- ==== Proof.RowSpec.lean ====
/-
  The mathematics both programs compute, as functions on the extended reals, with no program in sight.

  One output row depends on one row `xr` of the activations, on the whole weight matrix `w` and on the three
  channel vectors `b`, `γ`, `β`:
    * the linear layer          lin n      = (∑ k, xr k · w n k) + b n                    for a channel n < 4096;
    * the 4096 channels fall into 32 groups of 128 consecutive ones, channel 128·g + j being lane j of group g;
      a group's mean            gmean g    = (∑ j, lin (128 g + j)) / 128,
      the deviation from it     dev g j    = lin (128 g + j) − gmean g,
      the group's variance      gvar g     = (∑ j, dev g j · dev g j) / 128,
      the normalized value      normed g j = dev g j · rsqrt (gvar g + ε);
    * the affine map            affine n   = normed (n / 128) (n % 128) · γ n + β n;
    * the row's minimum         rowMin     = the fold of `min` from +∞ over the 4096 channels of `affine`.
  The result array adds a per-column bias to the row minimum: result (r, n) = rowMin (row r) + bias n.

  The constants 128, ε and +∞ stay the binary words both programs print (0x43000000, 0x3727C5AC, 0x7F800000):
  the same word on both sides is never evaluated.
-/
import Idealize.ShloMosaic.PureOps.Ideal.Laws
import Idealize.ShloMosaic.Lib.ValueIdx

noncomputable section

namespace Cert.GroupNormMin

open Idealize.ShloMosaic Idealize.ShloMosaic.ValueIdx

/-- Lane `j` of group `g` is channel `128 g + j`. -/
def chan (g : Fin 32) (j : Fin 128) : Fin 4096 := ⟨g.val * 128 + j.val, by have := g.isLt; have := j.isLt; omega⟩
/-- The group of a channel. -/
def grp (n : Fin 4096) : Fin 32 := ⟨n.val / 128, by have := n.isLt; omega⟩
/-- The lane of a channel inside its group. -/
def lane (n : Fin 4096) : Fin 128 := ⟨n.val % 128, by have := n.isLt; omega⟩

theorem chan_grp_lane (n : Fin 4096) : chan (grp n) (lane n) = n :=
  Fin.ext (by show n.val / 128 * 128 + n.val % 128 = n.val; omega)

section Row

variable (xr : Fin 2048 → EReal) (w : Fin 4096 → Fin 2048 → EReal) (b γ β : Fin 4096 → EReal)

/-- The linear layer at channel `n`. -/
def lin (n : Fin 4096) : EReal := (∑ k : Fin 2048, xr k * w n k) + b n
/-- The mean of group `g`: the sum of its 128 lanes over 128. -/
def gmean (g : Fin 32) : EReal :=
  Ideal.div (∑ j : Fin 128, lin xr w b (chan g j)) (Ideal.ofBits .f32 0x43000000#32)
/-- A lane's deviation from its group's mean. -/
def dev (g : Fin 32) (j : Fin 128) : EReal := lin xr w b (chan g j) - gmean xr w b g
/-- The variance of group `g`: the sum of the squared deviations over 128. -/
def gvar (g : Fin 32) : EReal :=
  Ideal.div (∑ j : Fin 128, dev xr w b g j * dev xr w b g j) (Ideal.ofBits .f32 0x43000000#32)
/-- The normalized lane: the deviation times the reciprocal square root of the variance plus ε. -/
def normed (g : Fin 32) (j : Fin 128) : EReal :=
  dev xr w b g j * Ideal.rsqrt (gvar xr w b g + Ideal.ofBits .f32 0x3727C5AC#32)
/-- The affine map at channel `n`, read at the channel's group and lane. -/
def affine (n : Fin 4096) : EReal := normed xr w b (grp n) (lane n) * γ n + β n
/-- The row's minimum over the 4096 channels, from +∞. -/
def rowMin : EReal :=
  (Finset.univ : Finset (Fin 4096)).fold min (Ideal.ofBits .f32 0x7F800000#32) (affine xr w b γ β)

end Row

/-! ## The arrays' rows and vectors, by coordinates -/

/-- Row `r` of the activations. -/
def rowOf (x : (⟨2, ![8192, 2048]⟩ : Shape).Idx → EReal) (r : Fin 8192) : Fin 2048 → EReal := fun k => x (ix2 r k)
/-- The weight matrix by (channel, k). -/
def matOf (W : (⟨2, ![4096, 2048]⟩ : Shape).Idx → EReal) : Fin 4096 → Fin 2048 → EReal := fun n k => W (ix2 n k)
/-- A channel vector by channel. -/
def vecOf (v : (⟨1, ![4096]⟩ : Shape).Idx → EReal) : Fin 4096 → EReal := fun n => v (ix1 n)

/-- The row minima as a column: entry (r, 0) is the minimum of row `r`. -/
def rowMinCol (x : (⟨2, ![8192, 2048]⟩ : Shape).Idx → EReal) (W : (⟨2, ![4096, 2048]⟩ : Shape).Idx → EReal)
    (b γ β : (⟨1, ![4096]⟩ : Shape).Idx → EReal) : (⟨2, ![8192, 1]⟩ : Shape).Idx → EReal :=
  fun i => rowMin (rowOf x ⟨(i 0).val, (i 0).isLt⟩) (matOf W) (vecOf b) (vecOf γ) (vecOf β)

/-- THE RESULT: entry (r, n) is the minimum of row `r` plus the bias of column `n`. -/
def result (x : (⟨2, ![8192, 2048]⟩ : Shape).Idx → EReal) (W : (⟨2, ![4096, 2048]⟩ : Shape).Idx → EReal)
    (b γ β : (⟨1, ![4096]⟩ : Shape).Idx → EReal) (bias : (⟨4, ![1, 4096, 1, 1]⟩ : Shape).Idx → EReal) :
    (⟨2, ![8192, 4096]⟩ : Shape).Idx → EReal :=
  fun i => rowMin (rowOf x ⟨(i 0).val, (i 0).isLt⟩) (matOf W) (vecOf b) (vecOf γ) (vecOf β)
    + bias (ix4 (0 : Fin 1) (⟨(i 1).val, (i 1).isLt⟩ : Fin 4096) (0 : Fin 1) (0 : Fin 1))

end Cert.GroupNormMin

end
-- ==== Proof.KernelRow.lean ====
/-
  The two kernels' payloads, read one element at a time.

  First kernel (one block of 128 rows): entry (p, 0) of what it stores is the row minimum `rowMin` of row p of
  the block — the linear layer, the group normalization over 32 groups of 128 lanes, the affine map and the
  minimum over the 4096 channels, exactly as the row specification spells them.  The proof follows the
  payload's operations in order, each intermediate vector read at explicit coordinates:
    y(p, n)            = lin n                      (product with the weights, plus the bias row)
    y3(p, g, j)        = lin (chan g j)             (the [128, 32, 128] view of the same row-major data)
    mean(p, g, 0)      = gmean g
    dv(p, g, j)        = dev g j
    var(p, g, 0)       = gvar g
    nrm(p, g, j)       = normed g j
    aff(p, n)          = affine n                   (back in the [128, 4096] view: channel n is lane n % 128 of group n / 128)
    out(p, 0)          = rowMin
  Second kernel (one block of 512 rows): entry (p, n) is the column entry (p, 0) plus the bias row's entry n.
-/
import proofs.«117625_j3556232921806_1_alg».proof.Proof.Gen.KernelIdeal.Skeleton
import proofs.«117625_j3556232921806_1_alg».proof.Proof.RowSpec
import Idealize.ShloMosaic.Lib.ValueIdx
import Idealize.ShloMosaic.Lib.Pipeline.Value
import Idealize.ShloMosaic.Lib.ValueLayout
import Idealize.ShloMosaic.PureOps.Ideal.Laws

noncomputable section

namespace Cert.GroupNormMin.Ker

open Cert.KernelIdeal Cert.KernelIdeal.Gen Idealize.ShloMosaic Idealize.ShloMosaic.ValueIdx

/-! ## The matrix product at an index

The contraction runs over axis 1 of both operands, so entry (p, n) of the product into the zero splat is
`∑ k, a (p, k) · w (n, k)`.  The four lemmas name the operand indices' coordinates; the sum is re-indexed from the
contraction shape's one-axis index to `Fin 2048`. -/

theorem lhs_ax0 (i : S128x4096.Idx) (q : dot_S128x2048_S4096x2048_S128x4096_1_1_0_0_n_n.contr.Idx) :
    (dot_S128x2048_S4096x2048_S128x4096_1_1_0_0_n_n.lhsIdx i q 0).val = (i 0).val := by
  unfold DotDims.lhsIdx
  rw [dif_neg (show ¬(0 : Fin S128x2048.rank) ∈ dot_S128x2048_S4096x2048_S128x4096_1_1_0_0_n_n.lhsBatch by decide), dif_pos (show (0 : Fin S128x2048.rank) ∈ dot_S128x2048_S4096x2048_S128x4096_1_1_0_0_n_n.lhsNonContracting by decide)]
  rfl
theorem lhs_ax1 (i : S128x4096.Idx) (q : dot_S128x2048_S4096x2048_S128x4096_1_1_0_0_n_n.contr.Idx) :
    (dot_S128x2048_S4096x2048_S128x4096_1_1_0_0_n_n.lhsIdx i q 1).val = (q ⟨0, by decide⟩).val :=
  dot_S128x2048_S4096x2048_S128x4096_1_1_0_0_n_n.lhsIdx_val_of_single rfl i q
theorem rhs_ax0 (i : S128x4096.Idx) (q : dot_S128x2048_S4096x2048_S128x4096_1_1_0_0_n_n.contr.Idx) :
    (dot_S128x2048_S4096x2048_S128x4096_1_1_0_0_n_n.rhsIdx i q 0).val = (i 1).val := by
  unfold DotDims.rhsIdx
  rw [dif_neg (show ¬(0 : Fin S4096x2048.rank) ∈ dot_S128x2048_S4096x2048_S128x4096_1_1_0_0_n_n.rhsBatch by decide), dif_pos (show (0 : Fin S4096x2048.rank) ∈ dot_S128x2048_S4096x2048_S128x4096_1_1_0_0_n_n.rhsNonContracting by decide)]
  rfl
theorem rhs_ax1 (i : S128x4096.Idx) (q : dot_S128x2048_S4096x2048_S128x4096_1_1_0_0_n_n.contr.Idx) :
    (dot_S128x2048_S4096x2048_S128x4096_1_1_0_0_n_n.rhsIdx i q 1).val = (q ⟨0, by decide⟩).val :=
  dot_S128x2048_S4096x2048_S128x4096_1_1_0_0_n_n.rhsIdx_val_of_single rfl i q

/-- The product into the zero splat at (p, n): the sum over k of a (p, k) · w (n, k). -/
theorem mm_apply (a : FVec Ideal S128x2048 .bf16) (w : FVec Ideal S4096x2048 .bf16) (p : Fin 128) (n : Fin 4096) :
    matmul dot_S128x2048_S4096x2048_S128x4096_1_1_0_0_n_n none a w (constant (F := Ideal) S128x4096 .f32 0x00000000#32) (ix2 p n)
      = ∑ k : Fin 2048, a (ix2 p k) * w (ix2 n k) := by
  simp only [matmul]
  rw [Ideal.matmul_constant_zero_apply, ← Equiv.sum_comp (ValueIdx.contrEquiv1 dot_S128x2048_S4096x2048_S128x4096_1_1_0_0_n_n 2048 rfl rfl).symm]
  refine Finset.sum_congr rfl fun k _ => ?_
  have hk := ValueIdx.contrEquiv1_symm_val dot_S128x2048_S4096x2048_S128x4096_1_1_0_0_n_n 2048 rfl rfl k
  have el : dot_S128x2048_S4096x2048_S128x4096_1_1_0_0_n_n.lhsIdx (ix2 p n) ((ValueIdx.contrEquiv1 dot_S128x2048_S4096x2048_S128x4096_1_1_0_0_n_n 2048 rfl rfl).symm k) = ix2 p k := funext fun a => Fin.ext (by
    match a with
    | ⟨0, _⟩ => exact lhs_ax0 _ _
    | ⟨1, _⟩ => exact (lhs_ax1 _ _).trans hk)
  have er : dot_S128x2048_S4096x2048_S128x4096_1_1_0_0_n_n.rhsIdx (ix2 p n) ((ValueIdx.contrEquiv1 dot_S128x2048_S4096x2048_S128x4096_1_1_0_0_n_n 2048 rfl rfl).symm k) = ix2 n k := funext fun a => Fin.ext (by
    match a with
    | ⟨0, _⟩ => exact rhs_ax0 _ _
    | ⟨1, _⟩ => exact (rhs_ax1 _ _).trans hk)
  rw [el, er]

/-! ## The first kernel's intermediate vectors

Each is the payload's own term for that value, over the loaded vectors; the payload is their composition by
definitional unfolding (`k0_pay1_eq`). -/

section Stages

variable (x : FVec Ideal S128x2048 .f32) (w : FVec Ideal S4096x2048 .bf16) (b γ β : FVec Ideal S1x4096 .f32)

/-- The linear layer over the block: the product with the weights plus the bias row. -/
def yv : FVec Ideal S128x4096 .f32 :=
  addf (matmul dot_S128x2048_S4096x2048_S128x4096_1_1_0_0_n_n none (truncf .bf16 x bitsLt_bf16_f32)
      (shapeCast S4096x2048 w shapeCasts_S4096x2048_S4096x2048) (constant (F := Ideal) S128x4096 .f32 0x00000000#32))
    (broadcastTo S128x4096 (shapeCast S1x4096 b shapeCasts_S1x4096_S1x4096) broadcasts_S1x4096_S128x4096)

/-- The same data seen as 32 groups of 128 lanes per row. -/
def y3 : FVec Ideal S128x32x128 .f32 := shapeCast S128x32x128 (yv x w b) shapeCasts_S128x4096_S128x32x128

/-- The group means, with a trailing unit axis. -/
def meanv : FVec Ideal S128x32x1 .f32 :=
  divf (shapeCast S128x32x1 (multiReduction (F := Ideal) .add [2] S128x32 (y3 x w b) 0x00000000#32 reduces_S128x32x128_S128x32 (.inl rfl) rfl)
      shapeCasts_S128x32_S128x32x1)
    (broadcast S128x32x1 (Scalar.ofBits (F := Ideal) .f32 0x43000000#32))

/-- The deviations from the group means. -/
def dv : FVec Ideal S128x32x128 .f32 :=
  subf (y3 x w b) (broadcastTo S128x32x128 (meanv x w b) broadcasts_S128x32x1_S128x32x128)

/-- The group variances, with a trailing unit axis. -/
def varv : FVec Ideal S128x32x1 .f32 :=
  divf (shapeCast S128x32x1 (multiReduction (F := Ideal) .add [2] S128x32 (mulf (dv x w b) (dv x w b)) 0x00000000#32 reduces_S128x32x128_S128x32 (.inl rfl) rfl)
      shapeCasts_S128x32_S128x32x1)
    (broadcast S128x32x1 (Scalar.ofBits (F := Ideal) .f32 0x43000000#32))

/-- The normalized values. -/
def nrm : FVec Ideal S128x32x128 .f32 :=
  mulf (dv x w b)
    (broadcastTo S128x32x128 (rsqrt (addf (varv x w b) (broadcast S128x32x1 (Scalar.ofBits (F := Ideal) .f32 0x3727C5AC#32))))
      broadcasts_S128x32x1_S128x32x128)

/-- The affine map, back in the [128, 4096] view. -/
def aff : FVec Ideal S128x4096 .f32 :=
  addf (mulf (shapeCast S128x4096 (nrm x w b) shapeCasts_S128x32x128_S128x4096)
      (broadcastTo S128x4096 (shapeCast S1x4096 γ shapeCasts_S1x4096_S1x4096) broadcasts_S1x4096_S128x4096))
    (broadcastTo S128x4096 (shapeCast S1x4096 β shapeCasts_S1x4096_S1x4096) broadcasts_S1x4096_S128x4096)

/-- The row minima as a column. -/
def outv : FVec Ideal S128x1 .f32 :=
  shapeCast S128x1 (multiReduction (F := Ideal) .minimumf [1] S128 (aff x w b γ β) 0x7F800000#32 reduces_S128x4096_S128 (.inl rfl) rfl)
    shapeCasts_S128_S128x1

/-- The payload is the composition of these stages. -/
theorem k0_pay1_eq : k0_pay1 (F := Ideal) x w b γ β = outv x w b γ β := rfl

end Stages

/-! ## A minimum over one axis at an index

A `minimumf` reduction over one axis, at the ideal values, is the fold of `min` from the accumulator's value over
that axis's coordinates. -/

theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## The indices a reduction inserts its coordinate into -/

/-- Over (p, g), lane j of the [128, 32, 128] view is (p, g, j). -/
theorem lift_lane (p : Fin 128) (g : Fin 32) (j : Fin 128) :
    reduces_S128x32x128_S128x32.lift (ix2 p g) j = ix3 p g j :=
  funext fun a => Fin.ext (by match a with | ⟨0, _⟩ => rfl | ⟨1, _⟩ => rfl | ⟨2, _⟩ => rfl)

/-- Over row p, channel n of the [128, 4096] view is (p, n). -/
theorem lift_chan (p : Fin 128) (n : Fin 4096) :
    reduces_S128x4096_S128.lift (ix1 p) n = ix2 p n :=
  funext fun a => Fin.ext (by match a with | ⟨0, _⟩ => rfl | ⟨1, _⟩ => rfl)

/-- A [128, 32] vector seen as [128, 32, 1] reads, at (p, g, u), its entry (p, g). -/
theorem keep_apply (v : FVec Ideal S128x32 .f32) (p : Fin 128) (g : Fin 32) (u : Fin 1) :
    shapeCast S128x32x1 v shapeCasts_S128x32_S128x32x1 (ix3 p g u) = v (ix2 p g) :=
  shapeCast_apply v shapeCasts_S128x32_S128x32x1 (ix3 p g u) (ix2 p g) (by
    rw [Shape.rowMajor_val_two, Shape.rowMajor_val_three]
    show p.val * 32 + g.val = (p.val * 32 + g.val) * 1 + u.val
    omega)

/-- A [128, 32, 1] vector spread over the 128 lanes reads, at (p, g, j), its entry (p, g, 0). -/
theorem spread_apply (v : FVec Ideal S128x32x1 .f32) (p : Fin 128) (g : Fin 32) (j : Fin 128) :
    broadcastTo S128x32x128 v broadcasts_S128x32x1_S128x32x128 (ix3 p g j) = v (ix3 p g (0 : Fin 1)) :=
  broadcastTo_apply v broadcasts_S128x32x1_S128x32x128 (ix3 p g j) (ix3 p g (0 : Fin 1)) fun ax => by
    match ax with
    | ⟨0, _⟩ => rfl
    | ⟨1, _⟩ => rfl
    | ⟨2, _⟩ => rfl

/-! ## The stages read at an index -/

section Reads

variable (x : FVec Ideal S128x2048 .f32) (w : FVec Ideal S4096x2048 .bf16) (b γ β : FVec Ideal S1x4096 .f32)

/-- y (p, n) is the linear layer of row p at channel n. -/
theorem yv_apply (p : Fin 128) (n : Fin 4096) :
    yv x w b (ix2 p n)
      = lin (fun k : Fin 2048 => x (ix2 p k)) (fun (n : Fin 4096) (k : Fin 2048) => w (ix2 n k)) (fun n : Fin 4096 => b (ix2 (0 : Fin 1) n)) n := by
  unfold yv lin
  rw [addf_apply, mm_apply, shapeCast_self, shapeCast_self, broadcastTo_1b_ab_apply]
  rfl

/-- The [128, 32, 128] view at (p, g, j) is the linear layer at channel 128 g + j. -/
theorem y3_apply (p : Fin 128) (g : Fin 32) (j : Fin 128) :
    y3 x w b (ix3 p g j)
      = lin (fun k : Fin 2048 => x (ix2 p k)) (fun (n : Fin 4096) (k : Fin 2048) => w (ix2 n k)) (fun n : Fin 4096 => b (ix2 (0 : Fin 1) n)) (chan g j) := by
  unfold y3
  refine (shapeCast_apply (yv x w b) shapeCasts_S128x4096_S128x32x128 (ix3 p g j) (ix2 p (chan g j)) ?_).trans (yv_apply x w b p (chan g j))
  rw [Shape.rowMajor_val_two, Shape.rowMajor_val_three]
  show p.val * 4096 + (g.val * 128 + j.val) = (p.val * 32 + g.val) * 128 + j.val
  omega

/-- The mean at (p, g, ·) is the group mean. -/
theorem meanv_apply (p : Fin 128) (g : Fin 32) (u : Fin 1) :
    meanv x w b (ix3 p g u)
      = gmean (fun k : Fin 2048 => x (ix2 p k)) (fun (n : Fin 4096) (k : Fin 2048) => w (ix2 n k)) (fun n : Fin 4096 => b (ix2 (0 : Fin 1) n)) g := by
  unfold meanv gmean
  rw [divf_apply, broadcast_apply, keep_apply]
  refine congrArg (fun s => Ideal.div s (Ideal.ofBits .f32 0x43000000#32)) ?_
  refine (Ideal.multiReduction_add_single (y3 x w b) 0x00000000#32 reduces_S128x32x128_S128x32 (.inl rfl) rfl (ix2 p g)).trans ?_
  refine Finset.sum_congr rfl fun j _ => ?_
  exact (congrArg (y3 x w b) (lift_lane p g j)).trans (y3_apply x w b p g j)

/-- The deviation at (p, g, j). -/
theorem dv_apply (p : Fin 128) (g : Fin 32) (j : Fin 128) :
    dv x w b (ix3 p g j)
      = dev (fun k : Fin 2048 => x (ix2 p k)) (fun (n : Fin 4096) (k : Fin 2048) => w (ix2 n k)) (fun n : Fin 4096 => b (ix2 (0 : Fin 1) n)) g j := by
  unfold dv dev
  rw [subf_apply, y3_apply, spread_apply, meanv_apply]

/-- The variance at (p, g, ·) is the group variance. -/
theorem varv_apply (p : Fin 128) (g : Fin 32) (u : Fin 1) :
    varv x w b (ix3 p g u)
      = gvar (fun k : Fin 2048 => x (ix2 p k)) (fun (n : Fin 4096) (k : Fin 2048) => w (ix2 n k)) (fun n : Fin 4096 => b (ix2 (0 : Fin 1) n)) g := by
  unfold varv gvar
  rw [divf_apply, broadcast_apply, keep_apply]
  refine congrArg (fun s => Ideal.div s (Ideal.ofBits .f32 0x43000000#32)) ?_
  refine (Ideal.multiReduction_add_single (mulf (dv x w b) (dv x w b)) 0x00000000#32 reduces_S128x32x128_S128x32 (.inl rfl) rfl (ix2 p g)).trans ?_
  refine Finset.sum_congr rfl fun j _ => ?_
  refine (congrArg (mulf (dv x w b) (dv x w b)) (lift_lane p g j)).trans ?_
  exact congrArg₂ (· * ·) (dv_apply x w b p g j) (dv_apply x w b p g j)

/-- The normalized value at (p, g, j). -/
theorem nrm_apply (p : Fin 128) (g : Fin 32) (j : Fin 128) :
    nrm x w b (ix3 p g j)
      = normed (fun k : Fin 2048 => x (ix2 p k)) (fun (n : Fin 4096) (k : Fin 2048) => w (ix2 n k)) (fun n : Fin 4096 => b (ix2 (0 : Fin 1) n)) g j := by
  unfold nrm normed
  rw [mulf_apply, dv_apply, spread_apply]
  show _ * Ideal.rsqrt (varv x w b (ix3 p g (0 : Fin 1)) + Ideal.ofBits .f32 0x3727C5AC#32) = _
  rw [varv_apply]

/-- The affine map at (p, n): channel n is lane n % 128 of group n / 128. -/
theorem aff_apply (p : Fin 128) (n : Fin 4096) :
    aff x w b γ β (ix2 p n)
      = affine (fun k : Fin 2048 => x (ix2 p k)) (fun (n : Fin 4096) (k : Fin 2048) => w (ix2 n k)) (fun n : Fin 4096 => b (ix2 (0 : Fin 1) n))
          (fun n : Fin 4096 => γ (ix2 (0 : Fin 1) n)) (fun n : Fin 4096 => β (ix2 (0 : Fin 1) n)) n := by
  unfold aff affine
  rw [addf_apply, mulf_apply, shapeCast_self, shapeCast_self, broadcastTo_1b_ab_apply, broadcastTo_1b_ab_apply]
  refine congrArg (fun v => v * γ (ix2 (0 : Fin 1) n) + β (ix2 (0 : Fin 1) n)) ?_
  refine (shapeCast_apply (nrm x w b) shapeCasts_S128x32x128_S128x4096 (ix2 p n) (ix3 p (grp n) (lane n)) ?_).trans (nrm_apply x w b p (grp n) (lane n))
  rw [Shape.rowMajor_val_three, Shape.rowMajor_val_two]
  show (p.val * 32 + n.val / 128) * 128 + n.val % 128 = p.val * 4096 + n.val
  omega

/-- The stored column at (p, ·) is the row minimum. -/
theorem outv_apply (p : Fin 128) (u : Fin 1) :
    outv x w b γ β (ix2 p u)
      = rowMin (fun k : Fin 2048 => x (ix2 p k)) (fun (n : Fin 4096) (k : Fin 2048) => w (ix2 n k)) (fun n : Fin 4096 => b (ix2 (0 : Fin 1) n))
          (fun n : Fin 4096 => γ (ix2 (0 : Fin 1) n)) (fun n : Fin 4096 => β (ix2 (0 : Fin 1) n)) := by
  unfold outv rowMin
  refine (shapeCast_apply _ shapeCasts_S128_S128x1 (ix2 p u) (ix1 p) ?_).trans ?_
  · rw [Shape.rowMajor_val_one, Shape.rowMajor_val_two]
    show p.val = p.val * 1 + u.val
    omega
  · refine (multiReduction_minimumf_single (aff x w b γ β) 0x7F800000#32 reduces_S128x4096_S128 (.inl rfl) rfl (ix1 p)).trans ?_
    refine Finset.fold_congr fun n _ => ?_
    exact (congrArg (aff x w b γ β) (lift_chan p n)).trans (aff_apply x w b γ β p n)

end Reads

/-! ## The first kernel's payload -/

/-- Entry (p, 0) of what the first kernel stores is the row minimum of row p of its block. -/
theorem pay0_apply (v0 : Vec Ideal S128x2048 .f32) (v2 : Vec Ideal S4096x2048 .bf16) (v5 v27 v31 : Vec Ideal S1x4096 .f32) (p : Fin 128) :
    k0_pay1 (F := Ideal) v0 v2 v5 v27 v31 (ix2 p (0 : Fin 1))
      = Cert.GroupNormMin.rowMin (fun k : Fin 2048 => v0 (ix2 p k)) (fun (n : Fin 4096) (k : Fin 2048) => v2 (ix2 n k))
          (fun n : Fin 4096 => v5 (ix2 (0 : Fin 1) n)) (fun n : Fin 4096 => v27 (ix2 (0 : Fin 1) n)) (fun n : Fin 4096 => v31 (ix2 (0 : Fin 1) n)) :=
  (congrFun (k0_pay1_eq v0 v2 v5 v27 v31) (ix2 p (0 : Fin 1))).trans (outv_apply v0 v2 v5 v27 v31 p (0 : Fin 1))

/-! ## The second kernel's payload -/

/-- Entry (p, n): the column's entry (p, 0) plus the bias row's entry n. -/
theorem pay1_apply (v0 : Vec Ideal S512x1 .f32) (v2 : Vec Ideal S1x4096 .f32) (p : Fin 512) (n : Fin 4096) :
    k1_pay1 (F := Ideal) v0 v2 (ix2 p n) = v0 (ix2 p (0 : Fin 1)) + v2 (ix2 (0 : Fin 1) n) := by
  unfold k1_pay1
  show broadcastTo S512x4096 (shapeCast S512x1 v0 shapeCasts_S512x1_S512x1) broadcasts_S512x1_S512x4096 (ix2 p n)
      + broadcastTo S512x4096 (shapeCast S1x4096 v2 shapeCasts_S1x4096_S1x4096) broadcasts_S1x4096_S512x4096 (ix2 p n) = _
  rw [shapeCast_self, shapeCast_self, broadcastTo_1b_ab_apply]
  refine congrArg (· + v2 (ix2 (0 : Fin 1) n)) ?_
  refine broadcastTo_apply v0 broadcasts_S512x1_S512x4096 (ix2 p n) (ix2 p (0 : Fin 1)) fun ax => ?_
  match ax with
  | ⟨0, _⟩ => rfl
  | ⟨1, _⟩ => rfl

end Cert.GroupNormMin.Ker

end
-- ==== Proof.KernelValue.lean ====
/-
  What the kernel program's result array holds after its run, as ONE function of the six argument arrays.

  The program runs two regions. The first walks the 8192 rows in 64 blocks of 128: at block t it reads rows
  128 t … 128 t + 127 of the activations, the whole weight matrix and the three channel rows, and writes the 128 row
  minima into rows 128 t … 128 t + 127 of a column array; the 64 blocks tile the column, so after the region the column
  holds every row's minimum. The second walks the rows in 16 blocks of 512: at block t it reads rows 512 t … of the column
  and the bias row, and writes column entry plus bias entry into rows 512 t … of the result; the 16 blocks tile the
  result. A block's coordinate on an axis is always (block index) × (block size) + (coordinate inside the block), and
  the block indices are decided once over each grid.
  Before the first region the host narrows the weights (the identity on extended reals) and reshapes the three channel
  vectors to rows; between the regions it reshapes the bias to a row. Reading those back gives the result array as
  the specification's `result` of the arguments.
-/
import proofs.«117625_j3556232921806_1_alg».proof.Proof.Gen.KernelIdeal.Frame
import proofs.«117625_j3556232921806_1_alg».proof.Proof.RowSpec
import proofs.«117625_j3556232921806_1_alg».proof.Proof.KernelRow
import Idealize.ShloMosaic.Lib.Pipeline.Value
import Idealize.ShloMosaic.Lib.ValueIdx
import Idealize.ShloMosaic.Lib.StableHlo.Run

set_option maxRecDepth 16384

noncomputable section

namespace Cert.KernelIdeal.ArrayValue

open Cert.KernelIdeal Cert.KernelIdeal.Gen Cert.GroupNormMin
open Idealize.ShloMosaic Idealize.ShloMosaic.TcCoe Idealize.ShloMosaic.ValueIdx Idealize.SL.Sem
open Idealize.ShloMosaic.Pipeline (Dat Cfg Window)

/-- Every access of both kernels starts at the origin of its buffer. -/
theorem hz : (![0, 0] : Fin 2 → Nat) = fun _ => 0 := funext fun a => by fin_cases a <;> rfl

variable (V : (c : Dev nD) → (b : Ref sig .tc) → Buf (Elt Ideal) ((c : Thread nD τ).loc b))

/-! ## The second region: each block of 512 rows ends at column entry plus bias entry -/

/-- A column of row values plus a row of column values: entry (r, n) is `col (r, 0) + row (0, n)`. -/
def addCol (col : S8192x1.Idx → EReal) (row : S1x4096.Idx → EReal) : S8192x4096.Idx → EReal :=
  fun i => col (ix2 (⟨(i 0).val, (i 0).isLt⟩ : Fin 8192) (0 : Fin 1)) + row (ix2 (0 : Fin 1) (⟨(i 1).val, (i 1).isLt⟩ : Fin 4096))

/-- The column array and the row array the second region reads, at their literal types. -/
abbrev colArr (c : Dev nD) : S8192x1.Idx → EReal := V c main_v4
abbrev rowArr (c : Dev nD) : S1x4096.Idx → EReal := V c main_v5

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem flushed1 (c : Dev nD) (t : Fin cfg1.N) :
    (dat1 V c).flushed 2 t = ((cfg1.win 2).blk t).view.read (Elt Ideal) (addCol (colArr V c) (rowArr V c)) := by
  show (cfg1.win 2).cut (grid1.coords t) ((dat1 V c).after 2 t) = _
  rw [after1_2]
  unfold out1_2
  rw [View.canon_unit_zero hz]
  simp only [View.ld_unit_zero (S := S512x1) hz, View.ld_unit_zero (S := S1x4096) hz]
  obtain ⟨e0, e1, e2, e3, e4, e5⟩ := idx_facts1 t
  funext j
  obtain ⟨p, n, rfl⟩ : ∃ (p : Fin 512) (n : Fin 4096), j = ix2 p n := ⟨j 0, j 1, eq_ix2 j⟩
  show k1_pay1 (iblk1 V c 0 t) (iblk1 V c 1 t) (ix2 p n) = addCol (colArr V c) (rowArr V c) (((cfg1.win 2).blk t).view.emb (ix2 p n))
  refine (Ker.pay1_apply (iblk1 V c 0 t) (iblk1 V c 1 t) p n).trans ?_
  show colArr V c (((cfg1.win 0).blk t).view.emb (ix2 p (0 : Fin 1))) + rowArr V c (((cfg1.win 1).blk t).view.emb (ix2 (0 : Fin 1) n)) = _
  unfold addCol
  refine congrArg₂ (· + ·) (congrArg (colArr V c) ?_) (congrArg (rowArr V c) ?_)
  · funext a; apply Fin.ext
    match a with
    | ⟨0, _⟩ => show win1_0.index t (0 : Fin 2) * 512 + 1 * p.val = win1_2.index t (0 : Fin 2) * 512 + 1 * p.val; omega
    | ⟨1, _⟩ => show win1_0.index t (1 : Fin 2) * 1 + 1 * 0 = 0; omega
  · funext a; apply Fin.ext
    match a with
    | ⟨0, _⟩ => show win1_1.index t (0 : Fin 2) * 1 + 1 * 0 = 0; omega
    | ⟨1, _⟩ => show win1_1.index t (1 : Fin 2) * 4096 + 1 * n.val = win1_2.index t (1 : Fin 2) * 4096 + 1 * n.val; omega

theorem mem_blk1 (t : Fin cfg1.N) (i : S8192x4096.Idx) :
    i ∈ ((cfg1.win 2).blk t).view.set ↔ ∀ a : Fin 2, win1_2.index t a * S512x4096.size a ≤ (i a).val ∧ (i a).val < win1_2.index t a * S512x4096.size a + S512x4096.size a := by
  show i ∈ ((View.whole main_v6).slice (win1_2.rect t)).set ↔ _
  rw [View.set_slice_whole, Rect.mem_set_unit]
  exact Iff.rfl

theorem cover1 (i : S8192x4096.Idx) : ∃ t : Fin cfg1.N, (cfg1.win 2).flush t = true ∧ i ∈ ((cfg1.win 2).blk t).view.set := by
  have hi0 : (i 0).val < 8192 := (i 0).isLt
  have hi1 : (i 1).val < 4096 := (i 1).isLt
  let t : Fin cfg1.N := ⟨(i 0).val / 512, by show (i 0).val / 512 < grid1.N; rw [N_1]; omega⟩
  obtain ⟨e0, e1, e2, e3, e4, e5⟩ := idx_facts1 t
  have e4' : win1_2.index t (0 : Fin 2) = (i 0).val / 512 := e4
  refine ⟨t, flush1_2 t, ?_⟩
  rw [mem_blk1]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 4096 ≤ (i 1).val ∧ (i 1).val < win1_2.index t (1 : Fin 2) * 4096 + 4096; omega

/-- After the second region its output array is the column plus the row, whole. -/
theorem final1 (c : Dev nD) : (dat1 V c).arrAt 2 cfg1.N = addCol (colArr V c) (rowArr V c) :=
  (dat1 V c).arrAt_eq_of_cover 2 _ (fun t _ => flushed1 V c t) cover1

/-! ## The first region: each block of 128 rows ends at its rows' minima -/

/-- The five arrays the first region reads, at their literal types. -/
abbrev actArr (c : Dev nD) : S8192x2048.Idx → EReal := V c main_arg0
abbrev wgtArr (c : Dev nD) : S4096x2048.Idx → EReal := V c main_v0
abbrev bRow (c : Dev nD) : S1x4096.Idx → EReal := V c main_v1
abbrev gRow (c : Dev nD) : S1x4096.Idx → EReal := V c main_v2
abbrev tRow (c : Dev nD) : S1x4096.Idx → EReal := V c main_v3

/-- The column of row minima: entry (r, 0) is the row function of row `r` of the activations, the weights by
    (channel, k), and the three channel rows. -/
def minCol (x : S8192x2048.Idx → EReal) (wb : S4096x2048.Idx → EReal) (b γ β : S1x4096.Idx → EReal) : S8192x1.Idx → EReal :=
  fun i => rowMin (fun k : Fin 2048 => x (ix2 (⟨(i 0).val, (i 0).isLt⟩ : Fin 8192) k)) (fun (n : Fin 4096) (k : Fin 2048) => wb (ix2 n k))
    (fun n : Fin 4096 => b (ix2 (0 : Fin 1) n)) (fun n : Fin 4096 => γ (ix2 (0 : Fin 1) n)) (fun n : Fin 4096 => β (ix2 (0 : Fin 1) n))

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem flushed0 (c : Dev nD) (t : Fin cfg0.N) :
    (dat0 V c).flushed 5 t = ((cfg0.win 5).blk t).view.read (Elt Ideal) (minCol (actArr V c) (wgtArr V c) (bRow V c) (gRow V c) (tRow V c)) := by
  show (cfg0.win 5).cut (grid0.coords t) ((dat0 V c).after 5 t) = _
  rw [after0_5]
  unfold out0_5
  rw [View.canon_unit_zero hz]
  simp only [View.ld_unit_zero (S := S128x2048) hz, View.ld_unit_zero (S := S4096x2048) hz, View.ld_unit_zero (S := S1x4096) hz]
  obtain ⟨e0, e1, e2, e3, e4, e5, e6, e7, e8, e9, e10, e11⟩ := idx_facts0 t
  funext j
  obtain ⟨p, q, rfl⟩ : ∃ (p : Fin 128) (q : Fin 1), j = ix2 p q := ⟨j 0, j 1, eq_ix2 j⟩
  obtain rfl : q = 0 := Subsingleton.elim _ _
  show k0_pay1 (iblk0 V c 0 t) (iblk0 V c 1 t) (iblk0 V c 2 t) (iblk0 V c 3 t) (iblk0 V c 4 t) (ix2 p (0 : Fin 1))
    = minCol (actArr V c) (wgtArr V c) (bRow V c) (gRow V c) (tRow V c) (((cfg0.win 5).blk t).view.emb (ix2 p (0 : Fin 1)))
  refine (Ker.pay0_apply (iblk0 V c 0 t) (iblk0 V c 1 t) (iblk0 V c 2 t) (iblk0 V c 3 t) (iblk0 V c 4 t) p).trans ?_
  unfold minCol
  have h0 : (fun k : Fin 2048 => iblk0 V c 0 t (ix2 p k))
      = fun k : Fin 2048 => actArr V c (ix2 (⟨((((cfg0.win 5).blk t).view.emb (ix2 p (0 : Fin 1))) 0).val, ((((cfg0.win 5).blk t).view.emb (ix2 p (0 : Fin 1))) 0).isLt⟩ : Fin 8192) k) := by
    funext k
    show actArr V c (((cfg0.win 0).blk t).view.emb (ix2 p k)) = _
    refine congrArg (actArr V c) (funext fun a => Fin.ext ?_)
    match a with
    | ⟨0, _⟩ => show win0_0.index t (0 : Fin 2) * 128 + 1 * p.val = win0_5.index t (0 : Fin 2) * 128 + 1 * p.val; omega
    | ⟨1, _⟩ => show win0_0.index t (1 : Fin 2) * 2048 + 1 * k.val = k.val; omega
  have h1 : (fun (n : Fin 4096) (k : Fin 2048) => iblk0 V c 1 t (ix2 n k)) = fun (n : Fin 4096) (k : Fin 2048) => wgtArr V c (ix2 n k) := by
    funext n k
    show wgtArr V c (((cfg0.win 1).blk t).view.emb (ix2 n k)) = _
    refine congrArg (wgtArr V c) (funext fun a => Fin.ext ?_)
    match a with
    | ⟨0, _⟩ => show win0_1.index t (0 : Fin 2) * 4096 + 1 * n.val = n.val; omega
    | ⟨1, _⟩ => show win0_1.index t (1 : Fin 2) * 2048 + 1 * k.val = k.val; omega
  have h2 : (fun n : Fin 4096 => iblk0 V c 2 t (ix2 (0 : Fin 1) n)) = fun n : Fin 4096 => bRow V c (ix2 (0 : Fin 1) n) := by
    funext n
    show bRow V c (((cfg0.win 2).blk t).view.emb (ix2 (0 : Fin 1) n)) = _
    refine congrArg (bRow V c) (funext fun a => Fin.ext ?_)
    match a with
    | ⟨0, _⟩ => show win0_2.index t (0 : Fin 2) * 1 + 1 * 0 = 0; omega
    | ⟨1, _⟩ => show win0_2.index t (1 : Fin 2) * 4096 + 1 * n.val = n.val; omega
  have h3 : (fun n : Fin 4096 => iblk0 V c 3 t (ix2 (0 : Fin 1) n)) = fun n : Fin 4096 => gRow V c (ix2 (0 : Fin 1) n) := by
    funext n
    show gRow V c (((cfg0.win 3).blk t).view.emb (ix2 (0 : Fin 1) n)) = _
    refine congrArg (gRow V c) (funext fun a => Fin.ext ?_)
    match a with
    | ⟨0, _⟩ => show win0_3.index t (0 : Fin 2) * 1 + 1 * 0 = 0; omega
    | ⟨1, _⟩ => show win0_3.index t (1 : Fin 2) * 4096 + 1 * n.val = n.val; omega
  have h4 : (fun n : Fin 4096 => iblk0 V c 4 t (ix2 (0 : Fin 1) n)) = fun n : Fin 4096 => tRow V c (ix2 (0 : Fin 1) n) := by
    funext n
    show tRow V c (((cfg0.win 4).blk t).view.emb (ix2 (0 : Fin 1) n)) = _
    refine congrArg (tRow V c) (funext fun a => Fin.ext ?_)
    match a with
    | ⟨0, _⟩ => show win0_4.index t (0 : Fin 2) * 1 + 1 * 0 = 0; omega
    | ⟨1, _⟩ => show win0_4.index t (1 : Fin 2) * 4096 + 1 * n.val = n.val; omega
  rw [h0, h1, h2, h3, h4]

theorem mem_blk0 (t : Fin cfg0.N) (i : S8192x1.Idx) :
    i ∈ ((cfg0.win 5).blk t).view.set ↔ ∀ a : Fin 2, win0_5.index t a * S128x1.size a ≤ (i a).val ∧ (i a).val < win0_5.index t a * S128x1.size a + S128x1.size a := by
  show i ∈ ((View.whole main_v4).slice (win0_5.rect t)).set ↔ _
  rw [View.set_slice_whole, Rect.mem_set_unit]
  exact Iff.rfl

theorem cover0 (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  let t : Fin cfg0.N := ⟨(i 0).val / 128, by show (i 0).val / 128 < grid0.N; rw [N_0]; omega⟩
  obtain ⟨e0, e1, e2, e3, e4, e5, e6, e7, e8, e9, e10, e11⟩ := idx_facts0 t
  have e10' : win0_5.index t (0 : Fin 2) = (i 0).val / 128 := e10
  refine ⟨t, flush0_5 t, ?_⟩
  rw [mem_blk0]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 1 ≤ (i 1).val ∧ (i 1).val < win0_5.index t (1 : Fin 2) * 1 + 1; omega

/-- After the first region its output array is the column of row minima, whole. -/
theorem final0 (c : Dev nD) : (dat0 V c).arrAt 5 cfg0.N = minCol (actArr V c) (wgtArr V c) (bRow V c) (gRow V c) (tRow V c) :=
  (dat0 V c).arrAt_eq_of_cover 5 _ (fun t _ => flushed0 V c t) cover0

/-! ## The arrays at each region's entry, read back through the host operations, and the result -/

section Run

variable (m : (ℓ : Loc nD τ sig) → Buf (Elt Ideal) ℓ) (ρ : Dev nD → PrngReg)

/-- A vector reshaped to one row, read at column `n`, is the vector at `n`. -/
theorem row_of_vec (v : S4096.Idx → EReal) (n : Fin 4096) :
    shapeCast S1x4096 v shapeCasts_S4096_S1x4096 (ix2 (0 : Fin 1) n) = v (ix1 n) :=
  shapeCast_apply v shapeCasts_S4096_S1x4096 (ix2 (0 : Fin 1) n) (ix1 n)
    (by rewrite [Shape.rowMajor_val_one, Shape.rowMajor_val_two]; show n.val = 0 * 4096 + n.val; omega)

/-- The bias array [1, 4096, 1, 1] reshaped to one row, read at column `n`, is the bias at (0, n, 0, 0). -/
theorem row_of_bias (v : S1x4096x1x1.Idx → EReal) (n : Fin 4096) :
    shapeCast S1x4096 v shapeCasts_S1x4096x1x1_S1x4096 (ix2 (0 : Fin 1) n) = v (ix4 (0 : Fin 1) n (0 : Fin 1) (0 : Fin 1)) :=
  shapeCast_apply v shapeCasts_S1x4096x1x1_S1x4096 (ix2 (0 : Fin 1) n) (ix4 (0 : Fin 1) n (0 : Fin 1) (0 : Fin 1))
    (by rewrite [Shape.rowMajor_val_four, Shape.rowMajor_val_two]; show ((0 * 4096 + n.val) * 1 + 0) * 1 + 0 = 0 * 4096 + n.val; omega)

/-- At the first region's entry: the activations as launched, the weights narrowed (the identity on extended reals),
    the three channel vectors as rows. -/
theorem entry0_act (c : Dev nD) : actArr (V1 m ρ) c = m ((c : Thread nD τ).loc main_arg0) := by
  show StableHlo.after hostOps0 (W0 m ρ c) (Proc.devRef .tc main_arg0) = _
  dsimp only [hostOps0]; after_results
theorem entry0_wgt (c : Dev nD) : wgtArr (V1 m ρ) c = (m ((c : Thread nD τ).loc main_arg1) : S4096x2048.Idx → EReal) := by
  show StableHlo.after hostOps0 (W0 m ρ c) (Proc.devRef .tc main_v0) = _
  dsimp only [hostOps0]; after_results; rfl
theorem entry0_b (c : Dev nD) : bRow (V1 m ρ) c = shapeCast S1x4096 (m ((c : Thread nD τ).loc main_arg2) : S4096.Idx → EReal) shapeCasts_S4096_S1x4096 := by
  show StableHlo.after hostOps0 (W0 m ρ c) (Proc.devRef .tc main_v1) = _
  dsimp only [hostOps0]; after_results; rfl
theorem entry0_g (c : Dev nD) : gRow (V1 m ρ) c = shapeCast S1x4096 (m ((c : Thread nD τ).loc main_arg3) : S4096.Idx → EReal) shapeCasts_S4096_S1x4096 := by
  show StableHlo.after hostOps0 (W0 m ρ c) (Proc.devRef .tc main_v2) = _
  dsimp only [hostOps0]; after_results; rfl
theorem entry0_t (c : Dev nD) : tRow (V1 m ρ) c = shapeCast S1x4096 (m ((c : Thread nD τ).loc main_arg4) : S4096.Idx → EReal) shapeCasts_S4096_S1x4096 := by
  show StableHlo.after hostOps0 (W0 m ρ c) (Proc.devRef .tc main_v3) = _
  dsimp only [hostOps0]; after_results; rfl

/-- At the second region's entry the column array is what the first region left, -/
theorem entry1_col (c : Dev nD) : colArr (V3 m ρ) c = (dat0 (V1 m ρ) c).arrAt 5 cfg0.N := by
  show StableHlo.after hostOps1 (W2 m ρ c) (Proc.devRef .tc main_v4) = _
  dsimp only [hostOps1]; after_results
  exact W2_arr m ρ c 5
/-- and the row array is the bias as launched, reshaped to one row. -/
theorem entry1_row (c : Dev nD) : rowArr (V3 m ρ) c = shapeCast S1x4096 (m ((c : Thread nD τ).loc main_arg5) : S1x4096x1x1.Idx → EReal) shapeCasts_S1x4096x1x1_S1x4096 := by
  have h5 : W2 m ρ c (Proc.devRef .tc main_arg5) = m ((c : Thread nD τ).loc main_arg5) :=
    (W2_of_ne m ρ c main_arg5 (by decide)).trans (by
      show StableHlo.after hostOps0 (W0 m ρ c) (Proc.devRef .tc main_arg5) = _
      dsimp only [hostOps0]; after_results)
  show StableHlo.after hostOps1 (W2 m ρ c) (Proc.devRef .tc main_v5) = _
  dsimp only [hostOps1]; after_results
  rw [h5]; rfl

/-- THE RESULT ARRAY at the last boundary is the specification's `result` of the six argument arrays. -/
theorem result_eq (c : Dev nD) :
    W4 m ρ c (Proc.devRef .tc main_v6) = result (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  refine (W4_arr m ρ c 2).trans ?_
  rw [final1 (V3 m ρ) c, entry1_col, entry1_row, final0 (V1 m ρ) c, entry0_act, entry0_wgt, entry0_b, entry0_g, entry0_t]
  funext i
  unfold addCol minCol result rowOf matOf vecOf
  have hb := fun n : Fin 4096 => row_of_vec (m ((c : Thread nD τ).loc main_arg2)) n
  have hg := fun n : Fin 4096 => row_of_vec (m ((c : Thread nD τ).loc main_arg3)) n
  have ht := fun n : Fin 4096 => row_of_vec (m ((c : Thread nD τ).loc main_arg4)) n
  have h5 := row_of_bias (m ((c : Thread nD τ).loc main_arg5)) (⟨(i 1).val, (i 1).isLt⟩ : Fin 4096)
  exact congrArg₂ (fun a b : EReal => a + b)
    (congr (congr (congrArg (rowMin _ _) (funext hb)) (funext hg)) (funext ht)) h5

end Run

end Cert.KernelIdeal.ArrayValue

end
-- ==== Proof.RefRow.lean ====
/-
  The reference program read at an index: its result array is the specification's `result`.

  The host program is a chain of 43 array operations. Read at explicit coordinates, each stage is a quantity of the
  specification:
    * stage 3 at (r, n) is the linear layer `lin` of row r at channel n: the contraction over k plus the bias;
    * the reshape to (row, group, lane) reads channel 128 g + j, so stage 4 at (r, g, j) is `lin` at `chan g j`;
    * the lane sums start from the zero word, which is 0, so stage 5 at (r, g) is the group's sum, stage 8 its mean
      `gmean`, stages 10 and 17 (the same subtraction, made twice) the deviation `dev`, stage 12 the sum of squared
      deviations, stage 15 the variance `gvar`, stage 20 the reciprocal square root of the variance plus ε, and stage 22
      the normalized lane `normed`;
    * the reshape back to (row, channel) reads group n / 128 and lane n % 128, so stage 29 at (r, n) is `affine` at n;
    * the reduction with `min` over the channel axis, from the word of +∞, is a fold of a commutative and associative
      operation over that axis's 4096 coordinates: `rowMin`;
    * the last stages broadcast the row minimum along the columns, add the column's bias, and drop two unit axes.
  The only arithmetic on indices is division with remainder by 4096 and by 128.
-/
import proofs.«117625_j3556232921806_1_alg».proof.Proof.Gen.ReferenceIdeal.Read
import proofs.«117625_j3556232921806_1_alg».proof.Proof.RowSpec

noncomputable section

namespace Cert.GroupNormMin.Ref

open Cert.ReferenceIdeal Cert.ReferenceIdeal.Gen Cert.ReferenceIdeal.Read Idealize.ShloMosaic Idealize.ShloMosaic.ValueIdx
  Idealize.SL.Sem Idealize.ShloMosaic.StableHlo

section Chain

variable (x0 : (⟨S8192x2048, .f32⟩ : BufTy).Contents (Elt Ideal)) (x1 : (⟨S4096x2048, .f32⟩ : BufTy).Contents (Elt Ideal))
  (x2 x3 x4 : (⟨S4096, .f32⟩ : BufTy).Contents (Elt Ideal)) (x5 : (⟨S1x4096x1x1, .f32⟩ : BufTy).Contents (Elt Ideal))

/-! ## Index equations: the generated index maps at explicit coordinates -/

theorem lidx_v0_at (r : Fin 8192) (n : Fin 4096) (k : Fin 2048) : lidx_main_v0 (ix2 r n) k = ix2 r k :=
  funext fun a => Fin.ext (by match a with | ⟨0, _⟩ => rfl | ⟨1, _⟩ => rfl)

theorem ridx_v0_at (r : Fin 8192) (n : Fin 4096) (k : Fin 2048) : ridx_main_v0 (ix2 r n) k = ix2 n k :=
  funext fun a => Fin.ext (by match a with | ⟨0, _⟩ => rfl | ⟨1, _⟩ => rfl)

theorem idx_v2_v1_at (r : Fin 8192) (n : Fin 4096) : idx_main_v1 (idx_main_v2 (ix2 r n)) = ix1 n :=
  funext fun a => Fin.ext (by match a with | ⟨0, _⟩ => rfl)

theorem idx_v25_v24_at (r : Fin 8192) (n : Fin 4096) : idx_main_v24 (idx_main_v25 (ix2 r n)) = ix1 n :=
  funext fun a => Fin.ext (by match a with | ⟨0, _⟩ => rfl)

theorem idx_v28_v27_at (r : Fin 8192) (n : Fin 4096) : idx_main_v27 (idx_main_v28 (ix2 r n)) = ix1 n :=
  funext fun a => Fin.ext (by match a with | ⟨0, _⟩ => rfl)

theorem idx_v4_at (r : Fin 8192) (g : Fin 32) (j : Fin 128) : idx_main_v4 (ix3 r g j) = ix2 r (chan g j) :=
  funext fun a => Fin.ext (by
    match a with
    | ⟨0, _⟩ => show ((r.val * 32 + g.val) * 128 + j.val) / 4096 = r.val; have := g.isLt; have := j.isLt; omega
    | ⟨1, _⟩ => show ((r.val * 32 + g.val) * 128 + j.val) % 4096 = g.val * 128 + j.val; have := g.isLt; have := j.isLt; omega)

theorem idx_v5_at (r : Fin 8192) (g : Fin 32) (j : Fin 128) : idx_main_v5 (ix2 r g) j = ix3 r g j :=
  funext fun a => Fin.ext (by match a with | ⟨0, _⟩ => rfl | ⟨1, _⟩ => rfl | ⟨2, _⟩ => rfl)

theorem idx_v12_at (r : Fin 8192) (g : Fin 32) (j : Fin 128) : idx_main_v12 (ix2 r g) j = ix3 r g j :=
  funext fun a => Fin.ext (by match a with | ⟨0, _⟩ => rfl | ⟨1, _⟩ => rfl | ⟨2, _⟩ => rfl)

theorem idx_v6_at (r : Fin 8192) (g : Fin 32) (z : Fin 1) : idx_main_v6 (ix3 r g z) = ix2 r g :=
  funext fun a => Fin.ext (by match a with | ⟨0, _⟩ => rfl | ⟨1, _⟩ => rfl)

theorem idx_v13_at (r : Fin 8192) (g : Fin 32) (z : Fin 1) : idx_main_v13 (ix3 r g z) = ix2 r g :=
  funext fun a => Fin.ext (by match a with | ⟨0, _⟩ => rfl | ⟨1, _⟩ => rfl)

theorem idx_v9_at (r : Fin 8192) (g : Fin 32) (j : Fin 128) : idx_main_v9 (ix3 r g j) = ix3 r g (0 : Fin 1) :=
  funext fun a => Fin.ext (by match a with | ⟨0, _⟩ => rfl | ⟨1, _⟩ => rfl | ⟨2, _⟩ => rfl)

theorem idx_v16_at (r : Fin 8192) (g : Fin 32) (j : Fin 128) : idx_main_v16 (ix3 r g j) = ix3 r g (0 : Fin 1) :=
  funext fun a => Fin.ext (by match a with | ⟨0, _⟩ => rfl | ⟨1, _⟩ => rfl | ⟨2, _⟩ => rfl)

theorem idx_v21_at (r : Fin 8192) (g : Fin 32) (j : Fin 128) : idx_main_v21 (ix3 r g j) = ix3 r g (0 : Fin 1) :=
  funext fun a => Fin.ext (by match a with | ⟨0, _⟩ => rfl | ⟨1, _⟩ => rfl | ⟨2, _⟩ => rfl)

/-- The reshape back to channels reads group n / 128, lane n % 128. -/
theorem idx_v23_at (r : Fin 8192) (n : Fin 4096) : idx_main_v23 (ix2 r n) = ix3 r (grp n) (lane n) :=
  funext fun a => Fin.ext (by
    match a with
    | ⟨0, _⟩ => show (r.val * 4096 + n.val) / 4096 = r.val; have := n.isLt; omega
    | ⟨1, _⟩ => show (r.val * 4096 + n.val) / 128 % 32 = n.val / 128; have := n.isLt; omega
    | ⟨2, _⟩ => show (r.val * 4096 + n.val) % 128 = n.val % 128; omega)

/-! ## The chain, stage by stage -/

/-- The linear layer. -/
theorem v3_at (r : Fin 8192) (n : Fin 4096) :
    val_main_v3 (F := Ideal) x0 x1 x2 (ix2 r n) = lin (rowOf x0 r) (matOf x1) (vecOf x2) n := by
  rw [val_main_v3_apply, val_main_v0_apply, val_main_v2_apply, val_main_v1_apply, idx_v2_v1_at]
  simp only [lidx_v0_at, ridx_v0_at]
  rfl

/-- Its regrouping into 32 groups of 128 lanes. -/
theorem v4_at (r : Fin 8192) (g : Fin 32) (j : Fin 128) :
    val_main_v4 (F := Ideal) x0 x1 x2 (ix3 r g j) = lin (rowOf x0 r) (matOf x1) (vecOf x2) (chan g j) := by
  rw [val_main_v4_apply, idx_v4_at, v3_at]

/-- A group's sum. -/
theorem v5_at (r : Fin 8192) (g : Fin 32) :
    val_main_v5 (F := Ideal) x0 x1 x2 (ix2 r g) = ∑ j : Fin 128, lin (rowOf x0 r) (matOf x1) (vecOf x2) (chan g j) := by
  rw [val_main_v5_apply, val_main_cst_apply, Ideal.ofBits_def, Ideal.ofBits_zero_f32, zero_add]
  refine Finset.sum_congr rfl fun j _ => ?_
  rw [idx_v5_at, v4_at]

/-- A group's mean. -/
theorem v8_at (r : Fin 8192) (g : Fin 32) (z : Fin 1) :
    val_main_v8 (F := Ideal) x0 x1 x2 (ix3 r g z) = gmean (rowOf x0 r) (matOf x1) (vecOf x2) g := by
  rw [val_main_v8_apply, val_main_v6_apply, val_main_v7_apply, val_main_cst_0_apply, idx_v6_at, v5_at]
  rfl

/-- The deviation from the mean (the program computes it twice). -/
theorem v10_at (r : Fin 8192) (g : Fin 32) (j : Fin 128) :
    val_main_v10 (F := Ideal) x0 x1 x2 (ix3 r g j) = dev (rowOf x0 r) (matOf x1) (vecOf x2) g j := by
  rw [val_main_v10_apply, val_main_v9_apply, v4_at, idx_v9_at, v8_at]
  rfl

theorem v17_at (r : Fin 8192) (g : Fin 32) (j : Fin 128) :
    val_main_v17 (F := Ideal) x0 x1 x2 (ix3 r g j) = dev (rowOf x0 r) (matOf x1) (vecOf x2) g j := by
  rw [val_main_v17_apply, val_main_v16_apply, v4_at, idx_v16_at, v8_at]
  rfl

/-- The sum of a group's squared deviations. -/
theorem v12_at (r : Fin 8192) (g : Fin 32) :
    val_main_v12 (F := Ideal) x0 x1 x2 (ix2 r g)
      = ∑ j : Fin 128, dev (rowOf x0 r) (matOf x1) (vecOf x2) g j * dev (rowOf x0 r) (matOf x1) (vecOf x2) g j := by
  rw [val_main_v12_apply, val_main_cst_1_apply, Ideal.ofBits_def, Ideal.ofBits_zero_f32, zero_add]
  refine Finset.sum_congr rfl fun j _ => ?_
  rw [idx_v12_at, val_main_v11_apply, v10_at]
  rfl

/-- A group's variance. -/
theorem v15_at (r : Fin 8192) (g : Fin 32) (z : Fin 1) :
    val_main_v15 (F := Ideal) x0 x1 x2 (ix3 r g z) = gvar (rowOf x0 r) (matOf x1) (vecOf x2) g := by
  rw [val_main_v15_apply, val_main_v13_apply, val_main_v14_apply, val_main_cst_2_apply, idx_v13_at, v12_at]
  rfl

/-- The reciprocal square root of the variance plus ε. -/
theorem v20_at (r : Fin 8192) (g : Fin 32) (z : Fin 1) :
    val_main_v20 (F := Ideal) x0 x1 x2 (ix3 r g z)
      = Ideal.rsqrt (gvar (rowOf x0 r) (matOf x1) (vecOf x2) g + Ideal.ofBits .f32 0x3727C5AC#32) := by
  rw [val_main_v20_apply, val_main_v19_apply, val_main_v18_apply, val_main_cst_3_apply, v15_at]
  rfl

/-- The normalized lane. -/
theorem v22_at (r : Fin 8192) (g : Fin 32) (j : Fin 128) :
    val_main_v22 (F := Ideal) x0 x1 x2 (ix3 r g j) = normed (rowOf x0 r) (matOf x1) (vecOf x2) g j := by
  rw [val_main_v22_apply, v17_at, val_main_v21_apply, idx_v21_at, v20_at]
  rfl

/-- The affine map, back at channel coordinates. -/
theorem v29_at (r : Fin 8192) (n : Fin 4096) :
    val_main_v29 (F := Ideal) x0 x1 x2 x3 x4 (ix2 r n)
      = affine (rowOf x0 r) (matOf x1) (vecOf x2) (vecOf x3) (vecOf x4) n := by
  rw [val_main_v29_apply, val_main_v26_apply, val_main_v23_apply, idx_v23_at, v22_at, val_main_v25_apply,
    val_main_v24_apply, idx_v25_v24_at, val_main_v28_apply, val_main_v27_apply, idx_v28_v27_at]
  rfl

/-! ## The row minimum -/

/-- The row axis survives a reduction over the channel axis. -/
theorem red : S8192x4096.Reduces [1] S8192 := by decide

/-- Row `r` with channel `k` inserted on the reduced axis is the index (r, k). -/
theorem lift_at (r : Fin 8192) (k : Fin 4096) : red.lift (ix1 r) k = ix2 r k :=
  funext fun c => Fin.ext (by match c with | ⟨0, _⟩ => rfl | ⟨1, _⟩ => rfl)

/-- The minimum over the 4096 channels of a row, from +∞: a fold of `min`, in any order. -/
theorem v30_at (r : Fin 8192) :
    val_main_v30 (F := Ideal) x0 x1 x2 x3 x4 (ix1 r)
      = rowMin (rowOf x0 r) (matOf x1) (vecOf x2) (vecOf x3) (vecOf x4) := by
  unfold val_main_v30
  rw [Host.reduce_eq_fold_single FloatOps.minimumf _ _ reducesTo_S8192x4096_S8192_d1 red h_S_ (ix1 r)]
  have hf : (val_main_v29 (F := Ideal) x0 x1 x2 x3 x4 ∘ red.lift (ix1 r))
      = affine (rowOf x0 r) (matOf x1) (vecOf x2) (vecOf x3) (vecOf x4) := funext fun k =>
    (congrArg (val_main_v29 (F := Ideal) x0 x1 x2 x3 x4) (lift_at r k)).trans (v29_at x0 x1 x2 x3 x4 r k)
  rw [hf]
  rfl

/-! ## The result: the row minimum plus the column's bias -/

theorem idx_v36_at (r : Fin 8192) (n : Fin 4096) : idx_main_v36 (ix2 r n) = ix4 r n (0 : Fin 1) (0 : Fin 1) :=
  funext fun a => Fin.ext (by
    match a with
    | ⟨0, _⟩ => show (r.val * 4096 + n.val) / 4096 = r.val; have := n.isLt; omega
    | ⟨1, _⟩ => show (r.val * 4096 + n.val) / 1 % 4096 = n.val; have := n.isLt; omega
    | ⟨2, _⟩ => rfl
    | ⟨3, _⟩ => rfl)

theorem idx_v33_at (r : Fin 8192) (n : Fin 4096) :
    idx_main_v33 (ix4 r n (0 : Fin 1) (0 : Fin 1)) = ix4 r (0 : Fin 1) (0 : Fin 1) (0 : Fin 1) :=
  funext fun a => Fin.ext (by match a with | ⟨0, _⟩ => rfl | ⟨1, _⟩ => rfl | ⟨2, _⟩ => rfl | ⟨3, _⟩ => rfl)

theorem idx_v32_at (r : Fin 8192) : idx_main_v32 (ix4 r (0 : Fin 1) (0 : Fin 1) (0 : Fin 1)) = ix2 r (0 : Fin 1) :=
  funext fun a => Fin.ext (by match a with | ⟨0, _⟩ => rfl | ⟨1, _⟩ => rfl)

theorem idx_v31_at (r : Fin 8192) : idx_main_v31 (ix2 r (0 : Fin 1)) = ix1 r :=
  funext fun a => Fin.ext (by match a with | ⟨0, _⟩ => rfl)

theorem idx_v34_at (r : Fin 8192) (n : Fin 4096) :
    idx_main_v34 (ix4 r n (0 : Fin 1) (0 : Fin 1)) = ix4 (0 : Fin 1) n (0 : Fin 1) (0 : Fin 1) :=
  funext fun a => Fin.ext (by match a with | ⟨0, _⟩ => rfl | ⟨1, _⟩ => rfl | ⟨2, _⟩ => rfl | ⟨3, _⟩ => rfl)

/-- Entry (r, n) of the result. -/
theorem v36_at (r : Fin 8192) (n : Fin 4096) :
    val_main_v36 (F := Ideal) x0 x1 x2 x3 x4 x5 (ix2 r n)
      = rowMin (rowOf x0 r) (matOf x1) (vecOf x2) (vecOf x3) (vecOf x4)
        + x5 (ix4 (0 : Fin 1) n (0 : Fin 1) (0 : Fin 1)) := by
  rw [val_main_v36_apply, idx_v36_at, val_main_v35_apply, val_main_v33_apply, idx_v33_at, val_main_v32_apply, idx_v32_at,
    val_main_v31_apply, idx_v31_at, v30_at, val_main_v34_apply, idx_v34_at]
  rfl

end Chain

/-- THE REFERENCE IS THE SPECIFICATION: the host program's result array is `result`. -/
theorem ref_eq_result (x0 : (⟨S8192x2048, .f32⟩ : BufTy).Contents (Elt Ideal)) (x1 : (⟨S4096x2048, .f32⟩ : BufTy).Contents (Elt Ideal)) (x2 x3 x4 : (⟨S4096, .f32⟩ : BufTy).Contents (Elt Ideal)) (x5 : (⟨S1x4096x1x1, .f32⟩ : BufTy).Contents (Elt Ideal)) :
    Cert.ReferenceIdeal.Read.val_main_v36 (F := Ideal) x0 x1 x2 x3 x4 x5 = Cert.GroupNormMin.result x0 x1 x2 x3 x4 x5 := by
  funext i
  have hi : i = ix2 (⟨(i 0).val, (i 0).isLt⟩ : Fin 8192) (⟨(i 1).val, (i 1).isLt⟩ : Fin 4096) :=
    funext fun a => by match a with | ⟨0, _⟩ => rfl | ⟨1, _⟩ => rfl
  exact (congrArg (val_main_v36 (F := Ideal) x0 x1 x2 x3 x4 x5) hi).trans (v36_at x0 x1 x2 x3 x4 x5 _ _)

end Cert.GroupNormMin.Ref

end
-- ==== Proof.lean ====
/-
  A linear layer, a group normalization and a row minimum, then a bias added per column: the kernel program against
  the plain array program, as functions on the extended reals.

  For an activation matrix x [8192, 2048], weights W [4096, 2048] and channel vectors b, γ, β [4096], both programs
  compute for every row r
      y n      = (∑ k, x (r, k) · W (n, k)) + b n,
      per group g of 128 consecutive channels: the mean of y over the group, the deviations from it, their mean
      square, and the deviations times rsqrt (mean square + ε),
      z n      = normalized n · γ n + β n,
      min r    = the minimum of z over the 4096 channels, from +∞,
  and the result entry (r, n) is min r + bias n. The kernel program does this in two passes over blocks of rows
  (128 rows, then 512), with the weights narrowed first — a change of format, the identity on extended reals —; the
  array program does it on whole arrays. The two texts apply the same operations in the same order with the same
  constants (128 as a divisor, the same ε word, +∞ as the minimum's start), so no algebraic law is needed beyond
  reading sums and minima as sums and folds over an axis, and the inputs' finiteness is never used.

  The parts: RowSpec states the row function and the result array; KernelRow reads the two kernels' payloads at an
  index; KernelValue tiles the blocks into whole arrays and reads the host reshapes back, over the launch re-posted
  with the result array named (FrameValue); RefRow reads the array program's 43 operations at an index. Here the
  claims are assembled.
-/
import proofs.«117625_j3556232921806_1_alg».proof.Defs
import proofs.«117625_j3556232921806_1_alg».proof.Proof.Gen.Kernel
import proofs.«117625_j3556232921806_1_alg».proof.Proof.Gen.Kernel.Skeleton
import proofs.«117625_j3556232921806_1_alg».proof.Proof.Gen.Kernel.Launch
import proofs.«117625_j3556232921806_1_alg».proof.Proof.Gen.Kernel.Points
import proofs.«117625_j3556232921806_1_alg».proof.Proof.Gen.Kernel.Frame
import proofs.«117625_j3556232921806_1_alg».proof.Proof.Gen.KernelIdeal
import proofs.«117625_j3556232921806_1_alg».proof.Proof.Gen.KernelIdeal.Skeleton
import proofs.«117625_j3556232921806_1_alg».proof.Proof.Gen.KernelIdeal.Launch
import proofs.«117625_j3556232921806_1_alg».proof.Proof.Gen.KernelIdeal.Points
import proofs.«117625_j3556232921806_1_alg».proof.Proof.Gen.KernelIdeal.Frame
import proofs.«117625_j3556232921806_1_alg».proof.Proof.Gen.ReferenceIdeal
import proofs.«117625_j3556232921806_1_alg».proof.Proof.Gen.ReferenceIdeal.Run
import proofs.«117625_j3556232921806_1_alg».proof.Proof.Gen.ReferenceIdeal.Read
import proofs.«117625_j3556232921806_1_alg».proof.Proof.Gen.Pre_finite_inputs
import proofs.«117625_j3556232921806_1_alg».proof.Proof.RowSpec
import proofs.«117625_j3556232921806_1_alg».proof.Proof.KernelRow
import proofs.«117625_j3556232921806_1_alg».proof.Proof.FrameValue
import proofs.«117625_j3556232921806_1_alg».proof.Proof.KernelValue
import proofs.«117625_j3556232921806_1_alg».proof.Proof.RefRow
import Idealize.ShloMosaic.Adequacy
import Idealize.ShloMosaic.Init

noncomputable section

namespace Cert.Proof

open Idealize.ShloMosaic Idealize.ShloMosaic.TcCoe Idealize.SL.Sem

/-- The kernel program's run, at the extended reals, with its result array named: the specification's `result` of the
    six argument arrays, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v6)
        = Cert.GroupNormMin.result (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run (Cert.KernelIdeal.defs (F := Ideal)) _ _).mono
    (fun r h c => ⟨(h c).1.trans (Cert.KernelIdeal.ArrayValue.result_eq m ρ c), (h c).2⟩)
    (Cert.KernelIdeal.RunNamed.run_named (F := Ideal) m ρ)

/-- The word-level kernel program runs, faults nowhere, and leaves its arguments as launched. -/
theorem frame_kernel : Cert.frame_Kernel := fun m ρ _ => Cert.Kernel.Gen.frame m ρ
/-- So does its reading at the extended reals. -/
theorem frame_kernelIdeal : Cert.frame_KernelIdeal := fun m ρ _ => Cert.KernelIdeal.Gen.frame m ρ
/-- So does the array program: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals: nothing to restate. -/
theorem preserves : Cert.preserves_Kernel_KernelIdeal := trivial

/-- From memories agreeing on the six arguments both programs end with the result array at `result` of those
    arguments: the kernel program by its two tiled regions, the array program by its operations read at an index. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.GroupNormMin.Ref.ref_eq_result,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
